-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S2048x512 : Shape := ⟨2, ![2048, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S65536x512 .f32) (main_arg1 : FVec F S2048x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S65536x512 : Shape := ⟨2, ![65536, 512]⟩
abbrev S2048x512 : Shape := ⟨2, ![2048, 512]⟩
abbrev S65536x2048 : Shape := ⟨2, ![65536, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S2048x512, .f32⟩
  | .hbm, ⟨2, _⟩ => ⟨S65536x2048, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S512x2048, .f32⟩
  | .local _ .vmem, ⟨4, _⟩ => ⟨S512x2048, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  reduces_S512x512_S512 : S512x512.Reduces [1] S512
  shapeCasts_S512_S512x1 : S512.ShapeCasts S512x1
  reduces_S2048x512_S2048 : S2048x512.Reduces [1] S2048
  shapeCasts_S2048_S1x2048 : S2048.ShapeCasts S1x2048
  bitsLt_bf16_f32 : FTy.bits .bf16 < FTy.bits .f32
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S65536x2048.size a
  hwx0_2 : ∀ i : grid0.Coords, EltTy.bits .f32 = 32 ∨ (Rect.block (s := S65536x2048) S512x2048.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S2048x512 : Shape := ⟨2, ![2048, 512]⟩
abbrev S_ : Shape := ⟨0, ![]⟩
abbrev S65536 : Shape := ⟨1, ![65536]⟩
abbrev S65536x1 : Shape := ⟨2, ![65536, 1]⟩
abbrev S2048 : Shape := ⟨1, ![2048]⟩
abbrev S1x2048 : Shape := ⟨2, ![1, 2048]⟩
abbrev S65536x2048 : Shape := ⟨2, ![65536, 2048]⟩

abbrev nBuf : Space → Nat
  | .hbm => 23
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S2048x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S65536x2048, .f32⟩
  | .hbm, ⟨11, _⟩ => ⟨S_, .f32⟩
  | .hbm, ⟨12, _⟩ => ⟨S65536x2048, .f32⟩
  | .hbm, ⟨13, _⟩ => ⟨S65536x2048, .f32⟩
  | .hbm, ⟨14, _⟩ => ⟨S65536x2048, .f32⟩
  | .hbm, ⟨15, _⟩ => ⟨S65536x2048, .f32⟩
  | .hbm, ⟨16, _⟩ => ⟨S65536x2048, .f32⟩
  | .hbm, ⟨17, _⟩ => ⟨S65536x2048, .f32⟩
  | .hbm, ⟨18, _⟩ => ⟨S_, .f32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S65536x2048, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S2048x512_S2048_d1 : S2048x512.ReducesTo [1] S2048
  bcast_S2048_S1x2048_1 : S2048.BroadcastsInDim S1x2048 (![1] : Fin 1 → Fin S1x2048.rank)
  bcast_S_S65536x2048 : S_.BroadcastsInDim S65536x2048 (![] : Fin 0 → Fin S65536x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  dot_S65536x512_S2048x512_S65536x2048_1_1_0_0_n_n_wf : DotDims.WF S65536x512 S2048x512 S65536x2048 [1] [1] [0] [0] [] []

variable [Facts₀]

def dot_S65536x512_S2048x512_S65536x2048_1_1_0_0_n_n : DotDims S65536x512 S2048x512 S65536x2048 where
  lhsContracting := [1]
  rhsContracting := [1]
  lhsNonContracting := [0]
  rhsNonContracting := [0]
  lhsBatch := []
  rhsBatch := []
  wf := dot_S65536x512_S2048x512_S65536x2048_1_1_0_0_n_n_wf

class Facts : Prop extends Facts₀ where

variable [Facts]
-- ==== Proof.NegDistance.lean ====
/-
  The negated Euclidean distance from a point x to a point p of a 512-dimensional space, by the quadratic
  expansion of the squared distance:

      |x - p|² = |x|² - 2 (x · p) + |p|²,     entry x p = -√(max (|x|² - 2 (x · p) + |p|²) 0).

  Here |x|² = Σ_k x_k², x · p = Σ_k x_k p_k, the three sums are over the 512 coordinates, and everything is read on
  the extended reals: the clamp at zero is the order's maximum, the root is the extended square root (√⊤ = ⊤) and the
  sign is the extended negation. The factor 2 is kept as the single-precision word that spells it; it is never
  evaluated, because both programs carry the same word. The grouping is fixed as written, (|x|² - 2 (x · p)) + |p|²:
  no law of the extended reals is used to regroup it.

  `table X P` is the 65536 × 2048 array whose entry (i, j) is `entry` of row i of X and row j of P.
-/
import Idealize.ShloMosaic.PureOps.Ideal.Laws
import Idealize.ShloMosaic.Lib.ValueIdx

noncomputable section

open scoped BigOperators

namespace Cert.NegDistance

open Idealize.ShloMosaic Idealize.ShloMosaic.ValueIdx

/-- The negated distance between two points given by their 512 coordinates. -/
def entry (x p : Fin 512 → EReal) : EReal :=
  -Ideal.sqrt (max ((∑ k, x k * x k) - Ideal.ofBits .f32 0x40000000#32 * (∑ k, x k * p k) + ∑ k, p k * p k) 0)

/-- Row `i` of an array with 512 columns, as a point. -/
def row {n : Nat} (A : FVec Ideal ⟨2, ![n, 512]⟩ .f32) (i : Fin n) : Fin 512 → EReal := fun k => A (ix2 i k)

/-- The whole table of negated distances: entry (i, j) pairs row i of the embeddings with row j of the prototypes. -/
def table (X : FVec Ideal ⟨2, ![65536, 512]⟩ .f32) (P : FVec Ideal ⟨2, ![2048, 512]⟩ .f32) :
    FVec Ideal ⟨2, ![65536, 2048]⟩ .f32 :=
  fun j => entry (row X (⟨(j 0).val, (j 0).isLt⟩ : Fin 65536)) (row P (⟨(j 1).val, (j 1).isLt⟩ : Fin 2048))

/-- The table at coordinates (i, j). -/
theorem table_apply (X : FVec Ideal ⟨2, ![65536, 512]⟩ .f32) (P : FVec Ideal ⟨2, ![2048, 512]⟩ .f32)
    (i : Fin 65536) (j : Fin 2048) : table X P (ix2 i j) = entry (row X i) (row P j) := rfl

/-- Subtracting from zero is negating, at the infinities too. -/
theorem zero_sub_ereal (a : EReal) : (0 : EReal) - a = -a := by
  rw [sub_eq_add_neg, zero_add]

end Cert.NegDistance

end
-- ==== Proof.LibKeepDims.lean ====
/-
  Two layout readings and one sum reading that a row-norm computation needs.

  A vector of per-row values (length a) that is first given a trailing unit axis (a × 1) and then repeated along that
  axis (a × b) holds, at (i, j), the value of row i. A vector of per-column values (length b) that is first given a
  leading unit axis (1 × b) and then repeated along it (a × b) holds, at (i, j), the value of column j. And the sum of
  an a × b array along its second axis, started from the zero word, holds at i the sum over k of the entries (i, k).
  None of these uses arithmetic: each only says which entry of the operand an entry of the result reads.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KeepDims

open Idealize.ShloMosaic Idealize.ShloMosaic.ValueIdx

variable {α : Type}

/-- A length-`a` vector cast to `a × 1` reads, at (i, u), the operand at i: both have row-major position i. -/
theorem cast_column_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- An `a × 1` array repeated to `a × b` reads, at (i, j), the operand's one entry of row i. -/
theorem repeat_column_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Per-row values, kept as a column and repeated: entry (i, j) is the value of row i. -/
theorem per_row_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ v h1) h2 (ix2 i j) = v (ix1 i) :=
  (repeat_column_apply _ h2 i j).trans (cast_column_apply v h1 i 0)

/-- Per-column values, kept as a row and repeated: entry (i, j) is the value of column j. -/
theorem per_column_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ v h1) h2 (ix2 i j) = v (ix1 j) :=
  (broadcastTo_1b_ab_apply _ h2 i j).trans (shapeCast_a_1a_apply v h1 0 j)

/-- The sum of an `a × b` array along its second axis, from the zero word, at row i: the sum over k of the entries
    (i, k). The index the one-axis reading inserts k into is (i, k). -/
theorem sum_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.KeepDims

end
-- ==== Proof.KernelEntry.lean ====
/-
  One entry of what the kernel's body stores, at the ideal values.

  The body holds a 512 × 512 block x of the embeddings and the whole 2048 × 512 array p of prototypes. It forms the
  row sums of squares of x (kept as a column) and of p (kept as a row), the product of x with the transpose of p
  (the operands first narrowed to a shorter format, which changes nothing at the ideal values), and stores
  0 - √(max ((|x_r|² - 2 (x_r · p_q)) + |p_q|²) 0) at (r, q). This module reads that stored value at (r, q) as the
  negated distance between row r of x and row q of p.

  The product contracts axis 1 of both operands. At result entry (r, q) and contraction position k the left operand
  is read at (r, k) and the right at (q, k); the positions are renamed by their one coordinate.
-/
import proofs.«162415_j15015205667287_1_alg».proof.Proof.Gen.KernelIdeal.Skeleton
import proofs.«162415_j15015205667287_1_alg».proof.Proof.NegDistance
import proofs.«162415_j15015205667287_1_alg».proof.Proof.LibKeepDims
import Idealize.ShloMosaic.PureOps.Ideal.Laws
import Idealize.ShloMosaic.Lib.ValueIdx

noncomputable section

open scoped BigOperators

namespace Cert.KernelIdeal.Entry

open Cert.KernelIdeal Cert.KernelIdeal.Gen Idealize.ShloMosaic Idealize.ShloMosaic.ValueIdx
open Cert.NegDistance Cert.KeepDims

/-! ## Where the product reads its operands -/

/-- The left operand's row is the result's row. -/
theorem left_axis0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl

/-- The left operand's column is the contraction position's coordinate. -/
theorem left_axis1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q

/-- The right operand's row is the result's column. -/
theorem right_axis0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl

/-- The right operand's column is the contraction position's coordinate. -/
theorem right_axis1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product into the zero array, at (r, q): the sum over k of A (r, k) · B (q, k). -/
theorem cross_apply {φ₁ φ₂ : FTy} (A : FVec Ideal S512x512 φ₁) (B : FVec Ideal S2048x512 φ₂) (r : Fin 512) (q : Fin 2048) :
    matmul dot_S512x512_S2048x512_S512x2048_1_1_0_0_n_n none A B (constant (F := Ideal) S512x2048 .f32 0x00000000#32) (ix2 r q)
      = ∑ k : Fin 512, A (ix2 r k) * B (ix2 q k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r q) ((contrEquiv1 dot_S512x512_S2048x512_S512x2048_1_1_0_0_n_n 512 rfl rfl).symm k) = ix2 r k := funext fun a => Fin.ext (by
    match a with
    | ⟨0, _⟩ => exact left_axis0 _ _
    | ⟨1, _⟩ => exact (left_axis1 _ _).trans hk)
  have er : dot_S512x512_S2048x512_S512x2048_1_1_0_0_n_n.rhsIdx (ix2 r q) ((contrEquiv1 dot_S512x512_S2048x512_S512x2048_1_1_0_0_n_n 512 rfl rfl).symm k) = ix2 q k := funext fun a => Fin.ext (by
    match a with
    | ⟨0, _⟩ => exact right_axis0 _ _
    | ⟨1, _⟩ => exact (right_axis1 _ _).trans hk)
  rw [el, er]

/-! ## The stored value at an entry -/

/-- The square root of an array reads the extended square root of the entry. -/
theorem sqrt_apply {s : Shape} {φ : FTy} (a : FVec Ideal s φ) (i : s.Idx) : sqrt a i = Ideal.sqrt (a i) := rfl

/-- What the body stores at (r, q) is the negated distance between row r of its block of embeddings and row q of the
    prototypes. -/
theorem payload_apply (x0 : FVec Ideal S512x512 .f32) (x1 : FVec Ideal S2048x512 .f32) (r : Fin 512) (q : Fin 2048) :
    k0_pay1 (F := Ideal) x0 x1 (ix2 r q) = entry (row x0 r) (row x1 q) := by
  unfold k0_pay1
  simp only [subf_apply, addf_apply, mulf_apply, maximumf_apply, broadcast_apply, sqrt_apply]
  rw [per_row_apply, per_column_apply, sum_rows_apply, sum_rows_apply, cross_apply]
  simp only [mulf_apply, truncf_apply, Ideal.ofBits_def, Ideal.ofBits_zero_f32, zero_sub_ereal]
  rfl

end Cert.KernelIdeal.Entry

end
-- ==== Proof.WholeTable.lean ====
/-
  From the blocks the grid writes back to the whole table of negated distances.

  The grid has 128 points. Point t stages rows 512 t … 512 t + 511 of the embeddings (all 512 columns) and the whole
  array of prototypes, and writes back rows 512 t … 512 t + 511 of the result (all 2048 columns). So the block of the
  embeddings at point t, read at (r, k), is the embeddings at (512 t + r, k); the block of the prototypes is the array
  itself; and what the body stores at (r, q) — the negated distance between row r of the staged block and row q of
  the prototypes — is the table's entry (512 t + r, q). Every row i of the result lies in exactly the block of point
  i / 512, so the blocks cover the array and the array ends holding the table.
-/
import proofs.«162415_j15015205667287_1_alg».proof.Proof.Gen.KernelIdeal.Value
import proofs.«162415_j15015205667287_1_alg».proof.Proof.KernelEntry
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx
open Cert.NegDistance

variable (m : (ℓ : Loc nD τ sig) → Buf (Elt Ideal) ℓ) (ρ : Dev nD → PrngReg)

/-- The body's rectangles start at the origin. -/
theorem offsets_zero : (![0, 0] : Fin 2 → Nat) = fun _ => 0 := funext fun a => by fin_cases a <;> rfl

/-- The block indices over the grid: the embeddings and the result move down one block of rows per point, the
    prototypes stay at the origin; no window moves along the columns. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The arrays and the staged blocks, at their literal shapes -/

/-- The embeddings as launched. -/
abbrev embArr (c : Dev nD) : FVec Ideal S65536x512 .f32 := m ((c : Thread nD τ).loc main_arg0)
/-- The prototypes as launched. -/
abbrev protoArr (c : Dev nD) : FVec Ideal S2048x512 .f32 := m ((c : Thread nD τ).loc main_arg1)
/-- The block of embeddings staged at point `t`. -/
abbrev embBlock (c : Dev nD) (t : Fin cfg0.N) : FVec Ideal S512x512 .f32 := iblk m c 0 t
/-- The block of prototypes staged at point `t`. -/
abbrev protoBlock (c : Dev nD) (t : Fin cfg0.N) : FVec Ideal S2048x512 .f32 := iblk m c 1 t

/-- The staged block of embeddings at (r, k) is the embeddings at (512 t + r, k). -/
theorem embBlock_apply (c : Dev nD) (t : Fin cfg0.N) (y : S512x512.Idx) (K : S65536x512.Idx)
    (h0 : (K 0).val = 512 * t.val + (y 0).val) (h1 : (K 1).val = (y 1).val) :
    embBlock m c t y = embArr m c K := by
  obtain ⟨e0, e1, -, -, -, -⟩ := block_indices t
  show iblk m c 0 t y = _
  unfold iblk
  rw [View.read_apply]
  show V m c main_arg0 _ = m (c.tc.loc main_arg0) _
  congr 1
  funext a
  apply Fin.ext
  match a with
  | ⟨0, _⟩ => show win0_0.index t 0 * 512 + 1 * (y 0).val = (K 0).val; rw [e0, h0]; omega
  | ⟨1, _⟩ => show win0_0.index t 1 * 512 + 1 * (y 1).val = (K 1).val; rw [e1, h1]; omega

/-- The staged block of prototypes is the whole array of prototypes. -/
theorem protoBlock_eq (c : Dev nD) (t : Fin cfg0.N) : protoBlock m c t = protoArr m c := by
  obtain ⟨-, -, e2, e3, -, -⟩ := block_indices t
  funext y
  show iblk m c 1 t y = _
  unfold iblk
  rw [View.read_apply]
  show V m c main_arg1 _ = m (c.tc.loc main_arg1) _
  congr 1
  funext a
  apply Fin.ext
  match a with
  | ⟨0, _⟩ => show win0_1.index t 0 * 2048 + 1 * (y 0).val = (y 0).val; rw [e2]; omega
  | ⟨1, _⟩ => show win0_1.index t 1 * 512 + 1 * (y 1).val = (y 1).val; rw [e3]; omega

/-- Row r of the staged block of embeddings is row 512 t + r of the embeddings. -/
theorem embBlock_row (c : Dev nD) (t : Fin cfg0.N) (r : Fin 512) (I : Fin 65536) (hI : I.val = 512 * t.val + r.val) :
    row (embBlock m c t) r = row (embArr m c) I :=
  funext fun k => embBlock_apply m c t (ix2 r k) (ix2 I k) hI rfl

/-! ## What a point writes back -/

/-- What the body stores at (r, q) at point t is the table's entry (512 t + r, q). -/
theorem block_entry (c : Dev nD) (t : Fin cfg0.N) (r : Fin 512) (q : Fin 2048) (I : Fin 65536)
    (hI : I.val = 512 * t.val + r.val) :
    k0_pay1 (F := Ideal) (embBlock m c t) (protoBlock m c t) (ix2 r q) = table (embArr m c) (protoArr m c) (ix2 I q) := by
  refine (Entry.payload_apply (embBlock m c t) (protoBlock m c t) r q).trans ?_
  rw [embBlock_row m c t r I hI, protoBlock_eq m c t]
  rfl

/-- The same over any index y of the block and any index J of the array with J = (512 t + y₀, y₁). -/
theorem block_entry_at (c : Dev nD) (t : Fin cfg0.N) (y : S512x2048.Idx) (J : S65536x2048.Idx)
    (h0 : (J 0).val = 512 * t.val + (y 0).val) (h1 : (J 1).val = (y 1).val) :
    k0_pay1 (F := Ideal) (embBlock m c t) (protoBlock m c t) y = table (embArr m c) (protoArr m c) J := by
  obtain ⟨r, q, rfl⟩ : ∃ (r : Fin 512) (q : Fin 2048), y = ix2 r q := ⟨y 0, y 1, eq_ix2 y⟩
  obtain ⟨I, Q, rfl⟩ : ∃ (I : Fin 65536) (Q : Fin 2048), J = ix2 I Q := ⟨J 0, J 1, eq_ix2 J⟩
  obtain rfl : Q = q := Fin.ext h1
  exact block_entry m c t r Q I h0

/-- What point t writes back is block t of the table. -/
theorem flushed_eq (c : Dev nD) (t : Fin cfg0.N) :
    (dats m 0 c).flushed 2 t = ((cfg0.win 2).blk t).view.read (Elt Ideal) (table (embArr m c) (protoArr m c)) := by
  rw [flushed2]
  unfold out0_2
  rw [View.canon_unit_zero offsets_zero]
  simp only [View.ld_unit_zero (S := S512x512) offsets_zero, View.ld_unit_zero (S := S2048x512) offsets_zero]
  obtain ⟨-, -, -, -, e4, e5⟩ := block_indices t
  funext y
  refine block_entry_at m c t y (((cfg0.win 2).blk t).view.emb y) ?_ ?_
  · show win0_2.index t 0 * 512 + 1 * (y 0).val = 512 * t.val + (y 0).val
    rw [e4]; omega
  · show win0_2.index t 1 * 2048 + 1 * (y 1).val = (y 1).val
    rw [e5]; omega

/-! ## The blocks cover the array -/

/-- An index of the array is in point t's block iff each coordinate is in the block's range on its axis. -/
theorem mem_block (t : Fin cfg0.N) (i : S65536x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Row i of the result lies in the block of point i / 512. -/
theorem covered (i : S65536x2048.Idx) :
    ∃ t : Fin cfg0.N, (cfg0.win 2).flush t = true ∧ i ∈ ((cfg0.win 2).blk t).view.set := by
  have hi0 : (i 0).val < 65536 := (i 0).isLt
  have hi1 : (i 1).val < 2048 := (i 1).isLt
  have hN : cfg0.N = 128 := N_0
  have ht : (i 0).val / 512 < cfg0.N := by rw [hN]; omega
  obtain ⟨-, -, -, -, e4, e5⟩ := block_indices ⟨(i 0).val / 512, ht⟩
  refine ⟨⟨(i 0).val / 512, ht⟩, flush0_2 _, ?_⟩
  rw [mem_block]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 2048 ≤ (i 1).val ∧ (i 1).val < win0_2.index ⟨(i 0).val / 512, ht⟩ (1 : Fin 2) * 2048 + 2048
    rw [e5]; omega

/-- After the run the result array is the table of negated distances of the arguments as launched. -/
theorem final (c : Dev nD) : (dats m 0 c).arrAt 2 cfg0.N = table (embArr m c) (protoArr m c) :=
  (dats m 0 c).arrAt_eq_of_cover 2 (table (embArr m c) (protoArr m c)) (fun t _ => flushed_eq m c t) covered

/-- The kernel's run, read: the result array ends at the table, the arguments unchanged. -/
theorem run : θ_run defs (onTc (τ := τ) (main (F := Ideal))) ⟨m, fun _ => 0, ρ⟩ fun r => ∀ c : Dev nD,
      r.2.mem ((c : Thread nD τ).loc main_v0) = table (embArr m c) (protoArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceEntry.lean ====
/-
  One entry of what the reference computes, at the ideal values.

  The reference forms, over the whole arrays, the row sums of squares of the embeddings X and of the prototypes P, the
  product of X with the transpose of P, then (|X_i|² - 2 (X_i · P_j)) + |P_j|² clamped at zero, its square root, and
  the negation. Read one operation at a time, each stage at (i, j) depends on its operands at indices that, composed,
  are (i, k) in X and (j, k) in P for the summed coordinate k; both sums start from the zero word, which adds nothing.
  So the last stage at (i, j) is the negated distance between row i of X and row j of P.
-/
import proofs.«162415_j15015205667287_1_alg».proof.Proof.Gen.ReferenceIdeal.Read
import proofs.«162415_j15015205667287_1_alg».proof.Proof.NegDistance
import Idealize.ShloMosaic.PureOps.Ideal.Laws
import Idealize.ShloMosaic.Lib.ValueIdx

noncomputable section

open scoped BigOperators

namespace Cert.ReferenceIdeal.Entry

open Cert.ReferenceIdeal Cert.ReferenceIdeal.Read Idealize.ShloMosaic Idealize.ShloMosaic.ValueIdx
open Cert.NegDistance

/-! ## The composed operand indices -/

/-- The row norm of the embeddings, carried to (i, j), sums the entries (i, k). -/
theorem norm_left_idx (i : Fin 65536) (j : Fin 2048) (k : Fin 512) :
    idx_main_v1 (idx_main_v2 (idx_main_v9 (ix2 i j))) k = ix2 i k :=
  funext fun a => Fin.ext (by match a with | ⟨0, _⟩ => rfl | ⟨1, _⟩ => rfl)

/-- The row norm of the prototypes, carried to (i, j), sums the entries (j, k). -/
theorem norm_right_idx (i : Fin 65536) (j : Fin 2048) (k : Fin 512) :
    idx_main_v4 (idx_main_v5 (idx_main_v11 (ix2 i j))) k = ix2 j k :=
  funext fun a => Fin.ext (by match a with | ⟨0, _⟩ => rfl | ⟨1, _⟩ => rfl)

/-- The product at (i, j) reads the embeddings at (i, k) -/
theorem cross_left_idx (i : Fin 65536) (j : Fin 2048) (k : Fin 512) : lidx_main_v6 (ix2 i j) k = ix2 i k :=
  funext fun a => Fin.ext (by match a with | ⟨0, _⟩ => rfl | ⟨1, _⟩ => rfl)

/-- and the prototypes at (j, k). -/
theorem cross_right_idx (i : Fin 65536) (j : Fin 2048) (k : Fin 512) : ridx_main_v6 (ix2 i j) k = ix2 j k :=
  funext fun a => Fin.ext (by match a with | ⟨0, _⟩ => rfl | ⟨1, _⟩ => rfl)

/-! ## The last stage at an entry -/

/-- The reference's result at (i, j) is the negated distance between row i of the embeddings and row j of the
    prototypes. -/
theorem stage_apply (X : FVec Ideal S65536x512 .f32) (P : FVec Ideal S2048x512 .f32) (i : Fin 65536) (j : Fin 2048) :
    val_main_v16 (F := Ideal) X P (ix2 i j) = entry (row X i) (row P j) := by
  rw [val_main_v16_apply, val_main_v15_apply, val_main_v14_apply, val_main_v13_apply, val_main_cst_2_apply,
    val_main_v12_apply, val_main_v11_apply, val_main_v5_apply, val_main_v4_apply, val_main_cst_0_apply,
    val_main_v10_apply, val_main_v9_apply, val_main_v2_apply, val_main_v1_apply, val_main_cst_apply,
    val_main_v8_apply, val_main_v7_apply, val_main_cst_1_apply, val_main_v6_apply]
  simp only [val_main_v0_apply, val_main_v3_apply, norm_left_idx, norm_right_idx, cross_left_idx, cross_right_idx,
    Ideal.hostNegf_def, Ideal.negf_def, Ideal.hostUnary_sqrt_def, Ideal.maximumf_def, Ideal.addf_def, Ideal.subf_def,
    Ideal.mulf_def, Ideal.ofBits_def, Ideal.ofBits_zero_f32, zero_add]
  rfl

/-- So the reference's last stage, as a whole array, is the table of negated distances of its arguments. -/
theorem result_is_table (X : FVec Ideal S65536x512 .f32) (P : FVec Ideal S2048x512 .f32) :
    val_main_v16 (F := Ideal) X P = table X P := by
  funext j
  obtain ⟨i, q, rfl⟩ : ∃ (i : Fin 65536) (q : Fin 2048), j = ix2 i q := ⟨j 0, j 1, eq_ix2 j⟩
  exact stage_apply X P i q

end Cert.ReferenceIdeal.Entry

end
-- ==== Proof.lean ====
/-
  The kernel and its reference compute one table.

  For embeddings X (65536 × 512) and prototypes P (2048 × 512) both programs produce the 65536 × 2048 array whose
  entry (i, j) is the negated Euclidean distance between row i of X and row j of P, by the quadratic expansion

      -√(max ((|X_i|² - 2 (X_i · P_j)) + |P_j|²) 0),

  with the same grouping and the same constants on both sides. The kernel does it 512 rows at a time, with the
  product's operands narrowed to a shorter float format and the sign taken as a subtraction from zero; the reference
  does it on the whole arrays with a host product and a negation. At the ideal values a change of format is the
  identity, a product into the zero array and a host product are the same sum of products, a lane sum and a host sum
  from the zero word are the same sum, and 0 - a = -a on all of the extended reals. So no law that needs finite
  entries is used, and the precondition is never opened.

  `Cert.NegDistance` states the table; `Cert.KernelIdeal.Entry` and `Cert.ReferenceIdeal.Entry` read one entry of each
  side as the table's; `Cert.KernelIdeal.Whole` carries the kernel's blocks to the whole array. The three frames are
  the generated runs; nothing was rewritten in the idealized kernel, so the idealization claim is trivial.
-/
import proofs.«162415_j15015205667287_1_alg».proof.Defs
import proofs.«162415_j15015205667287_1_alg».proof.Proof.Gen.Kernel
import proofs.«162415_j15015205667287_1_alg».proof.Proof.Gen.Kernel.Skeleton
import proofs.«162415_j15015205667287_1_alg».proof.Proof.Gen.Kernel.Launch
import proofs.«162415_j15015205667287_1_alg».proof.Proof.Gen.Kernel.Points
import proofs.«162415_j15015205667287_1_alg».proof.Proof.Gen.Kernel.Frame
import proofs.«162415_j15015205667287_1_alg».proof.Proof.Gen.KernelIdeal
import proofs.«162415_j15015205667287_1_alg».proof.Proof.Gen.KernelIdeal.Skeleton
import proofs.«162415_j15015205667287_1_alg».proof.Proof.Gen.KernelIdeal.Launch
import proofs.«162415_j15015205667287_1_alg».proof.Proof.Gen.KernelIdeal.Points
import proofs.«162415_j15015205667287_1_alg».proof.Proof.Gen.KernelIdeal.Frame
import proofs.«162415_j15015205667287_1_alg».proof.Proof.Gen.ReferenceIdeal
import proofs.«162415_j15015205667287_1_alg».proof.Proof.Gen.Pre_finite_inputs
import proofs.«162415_j15015205667287_1_alg».proof.Proof.Gen.KernelIdeal.Value
import proofs.«162415_j15015205667287_1_alg».proof.Proof.Gen.ReferenceIdeal.Run
import proofs.«162415_j15015205667287_1_alg».proof.Proof.Gen.ReferenceIdeal.Read
import proofs.«162415_j15015205667287_1_alg».proof.Proof.WholeTable
import proofs.«162415_j15015205667287_1_alg».proof.Proof.ReferenceEntry
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no operation was rewritten. -/
theorem preserves : Cert.preserves_Kernel_KernelIdeal := trivial

/-- From memories that agree on the arguments, both programs end with the table of negated distances of those
    arguments: the kernel by its blocks, the reference stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.ReferenceIdeal.Entry.result_is_table _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
